-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x2048x64 : Shape := ⟨3, ![32, 2048, 64]⟩
abbrev S2048x2048 : Shape := ⟨2, ![2048, 2048]⟩
abbrev S_ : Shape := ⟨0, ![]⟩

class Facts : Prop where
  bcast_S_S32x2048x64 : S_.BroadcastsInDim S32x2048x64 (![] : Fin 0 → Fin S32x2048x64.rank)
  reducesTo_S32x2048x64_S_d0_1_2 : S32x2048x64.ReducesTo [0, 1, 2] S_
  h_S_ : 0 < S_.numel

variable [Facts]

def fn {F : FTy → Type} [FloatOps F] (main_arg0 : FVec F S32x2048x64 .f32) (main_arg1 : IVec S2048x2048 32) : IVec S_ 1 :=
  let main_v0 : FVec F S32x2048x64 .f32 := Host.absf main_arg0
  let main_cst : FVec F S_ .f32 := constant S_ .f32 0x7F800000#32
  let main_v1 : FVec F S32x2048x64 .f32 := broadcastInDim S32x2048x64 ![] bcast_S_S32x2048x64 main_cst
  let main_v2 : IVec S32x2048x64 1 := cmpf .olt main_v0 main_v1
  let main_c : IVec S_ 1 := constantI S_ 1 1#1
  let main_v3 : IVec S_ 1 := (fun x v => Host.reduce IntOp.andi x v reducesTo_S32x2048x64_S_d0_1_2 h_S_) main_v2 main_c
  main_v3
-- ==== Kernel.lean ====
abbrev S32x2048x64 : Shape := ⟨3, ![32, 2048, 64]⟩
abbrev S2048x2048 : Shape := ⟨2, ![2048, 2048]⟩
abbrev S1x128x64 : Shape := ⟨3, ![1, 128, 64]⟩
abbrev S128x64 : Shape := ⟨2, ![128, 64]⟩
abbrev S1x2048x64 : Shape := ⟨3, ![1, 2048, 64]⟩
abbrev S2048x64 : Shape := ⟨2, ![2048, 64]⟩
abbrev S128x2048 : Shape := ⟨2, ![128, 2048]⟩
abbrev S128 : Shape := ⟨1, ![128]⟩
abbrev S128x1 : Shape := ⟨2, ![128, 1]⟩

abbrev nBuf : Space → Nat
  | .hbm => 4
  | .vmem => 4
  | .smem => 0
  | _ => 0

abbrev bufTy : (tb : Table) → Fin (tcTables nBuf tb) → BufTy
  | .hbm, ⟨0, _⟩ => ⟨S32x2048x64, .f32⟩
  | .hbm, ⟨1, _⟩ => ⟨S2048x2048, .i32⟩
  | .hbm, ⟨2, _⟩ => ⟨S32x2048x64, .bf16⟩
  | .hbm, ⟨3, _⟩ => ⟨S32x2048x64, .f32⟩
  | .local _ .vmem, ⟨0, _⟩ => ⟨S32x2048x64, .bf16⟩
  | .local _ .vmem, ⟨1, _⟩ => ⟨S2048x2048, .i32⟩
  | .local _ .vmem, ⟨2, _⟩ => ⟨S1x128x64, .f32⟩
  | .local _ .vmem, ⟨3, _⟩ => ⟨S1x128x64, .f32⟩
  | _, _ => ⟨S32x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_sem0_0 : DmaSem sig := 0
abbrev cc0_sem1_0 : DmaSem sig := 1
abbrev cc0_sem2_0 : DmaSem sig := 2
abbrev cc0_sem2_1 : DmaSem sig := 3

abbrev nD : Nat := 1
abbrev τ : Topo := Topo.v7x

variable {F : FTy → Type} [FloatOps F]

abbrev grid0 : Pipeline.Grid := ⟨2, ![32, 16], ![false, false]⟩

def k0_mult1 (i : grid0.Coords) : BitVec 32 :=
  let arg1 : BitVec 32 := BitVec.ofNat 32 (i 1).val
  let c128_i32 : BitVec 32 := 128#32
  let v0 : BitVec 32 := Scalar.muli arg1 c128_i32
  v0
def k0_off1 (i : grid0.Coords) : Fin 3 → Nat :=
  let arg0 : BitVec 32 := BitVec.ofNat 32 (i 0).val
  let v2 : Index := Scalar.indexCast arg0
  let arg1 : BitVec 32 := BitVec.ofNat 32 (i 1).val
  let c128_i32 : BitVec 32 := 128#32
  let v0 : BitVec 32 := Scalar.muli arg1 c128_i32
  let v1 : BitVec 32 := v0
  let v3 : Index := Scalar.indexCast v1
  let c0 : Index := 0#32
  ![v2.toNat, v3.toNat, 0]
def k0_off2 (i : grid0.Coords) : Fin 3 → Nat :=
  let arg0 : BitVec 32 := BitVec.ofNat 32 (i 0).val
  let v6 : Index := Scalar.indexCast arg0
  let c0_0 : Index := 0#32
  let c0_1 : Index := 0#32
  ![v6.toNat, 0, 0]
def k0_off3 (i : grid0.Coords) : Fin 2 → Nat :=
  let arg1 : BitVec 32 := BitVec.ofNat 32 (i 1).val
  let c128_i32 : BitVec 32 := 128#32
  let v0 : BitVec 32 := Scalar.muli arg1 c128_i32
  let v1 : BitVec 32 := v0
  let v9 : Index := Scalar.indexCast v1
  let c0_2 : Index := 0#32
  ![v9.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S32x2048x64 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S2048x2048 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x128x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  bitsLt_bf16_f32 : FTy.bits .bf16 < FTy.bits .f32
  h_S1x128x64 : 0 < S1x128x64.numel
  shapeCasts_S1x128x64_S128x64 : S1x128x64.ShapeCasts S128x64
  h_S1x2048x64 : 0 < S1x2048x64.numel
  shapeCasts_S1x2048x64_S2048x64 : S1x2048x64.ShapeCasts S2048x64
  h_S128x2048 : 0 < S128x2048.numel
  reduces_S128x2048_S128 : S128x2048.Reduces [1] S128
  shapeCasts_S128_S128x1 : S128.ShapeCasts S128x1
  broadcasts_S128x1_S128x2048 : S128x1.Broadcasts S128x2048
  inb_S1x128x64_S1x128x64_0_0_0 : ∀ a, (![0, 0, 0] : Fin 3 → Nat) a + S1x128x64.size a ≤ S1x128x64.size a
  shapeCasts_S128x64_S1x128x64 : S128x64.ShapeCasts S1x128x64
  dot_S128x64_S2048x64_S128x2048_1_1_0_0_n_n_wf : DotDims.WF S128x64 S2048x64 S128x2048 [1] [1] [0] [0] [] []
  dot_S128x2048_S2048x64_S128x64_1_0_0_1_n_n_wf : DotDims.WF S128x2048 S2048x64 S128x64 [1] [0] [0] [1] [] []
  hrank0 : 0 < grid0.rank
  k0_mult1_dvd : ∀ i : grid0.Coords, 128 ∣ (k0_mult1 i).toNat
  k0_off1_inb : ∀ i : grid0.Coords, ∀ a, (k0_off1 i) a + S1x128x64.size a ≤ S32x2048x64.size a
  k0_off2_inb : ∀ i : grid0.Coords, ∀ a, (k0_off2 i) a + S1x2048x64.size a ≤ S32x2048x64.size a
  k0_off3_inb : ∀ i : grid0.Coords, ∀ a, (k0_off3 i) a + S128x2048.size a ≤ S2048x2048.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S32x2048x64.size a ≤ S32x2048x64.size a
  hwx0_0 : ∀ i : grid0.Coords, EltTy.bits .bf16 = 32 ∨ (Rect.block (s := S32x2048x64) S32x2048x64.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x2048.size a ≤ S2048x2048.size a
  hwx0_1 : ∀ i : grid0.Coords, EltTy.bits .i32 = 32 ∨ (Rect.block (s := S2048x2048) S2048x2048.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128x64.size a ≤ S32x2048x64.size a
  hwx0_2 : ∀ i : grid0.Coords, EltTy.bits .f32 = 32 ∨ (Rect.block (s := S32x2048x64) S1x128x64.size (cc0_transform_2 i) (hinb0_2 i)).WholeWords (EltTy.packing .f32)

variable [Facts₀]

def dot_S128x64_S2048x64_S128x2048_1_1_0_0_n_n : DotDims S128x64 S2048x64 S128x2048 where
  lhsContracting := [1]
  rhsContracting := [1]
  lhsNonContracting := [0]
  rhsNonContracting := [0]
  lhsBatch := []
  rhsBatch := []
  wf := dot_S128x64_S2048x64_S128x2048_1_1_0_0_n_n_wf
def dot_S128x2048_S2048x64_S128x64_1_0_0_1_n_n : DotDims S128x2048 S2048x64 S128x64 where
  lhsContracting := [1]
  rhsContracting := [0]
  lhsNonContracting := [0]
  rhsNonContracting := [1]
  lhsBatch := []
  rhsBatch := []
  wf := dot_S128x2048_S2048x64_S128x64_1_0_0_1_n_n_wf

abbrev win0_0 : Pipeline.Window sig grid0 :=
  Pipeline.Window.ofSpec (Memref.whole main_v0) S32x2048x64.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x128x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S32x2048x64 : Shape := ⟨3, ![32, 2048, 64]⟩
abbrev S2048x2048 : Shape := ⟨2, ![2048, 2048]⟩
abbrev S32x2048x2048 : Shape := ⟨3, ![32, 2048, 2048]⟩
abbrev S_ : Shape := ⟨0, ![]⟩
abbrev S32x2048 : Shape := ⟨2, ![32, 2048]⟩
abbrev S32x2048x1 : Shape := ⟨3, ![32, 2048, 1]⟩

abbrev nBuf : Space → Nat
  | .hbm => 28
  | .vmem => 0
  | .smem => 0
  | _ => 0

abbrev bufTy : (tb : Table) → Fin (tcTables nBuf tb) → BufTy
  | .hbm, ⟨0, _⟩ => ⟨S32x2048x64, .f32⟩
  | .hbm, ⟨1, _⟩ => ⟨S2048x2048, .i32⟩
  | .hbm, ⟨2, _⟩ => ⟨S32x2048x2048, .f32⟩
  | .hbm, ⟨3, _⟩ => ⟨S_, .f32⟩
  | .hbm, ⟨4, _⟩ => ⟨S32x2048x2048, .f32⟩
  | .hbm, ⟨5, _⟩ => ⟨S32x2048x2048, .f32⟩
  | .hbm, ⟨6, _⟩ => ⟨S_, .i32⟩
  | .hbm, ⟨7, _⟩ => ⟨S2048x2048, .i32⟩
  | .hbm, ⟨8, _⟩ => ⟨S2048x2048, .i1⟩
  | .hbm, ⟨9, _⟩ => ⟨S_, .f32⟩
  | .hbm, ⟨10, _⟩ => ⟨S32x2048x2048, .i1⟩
  | .hbm, ⟨11, _⟩ => ⟨S32x2048x2048, .f32⟩
  | .hbm, ⟨12, _⟩ => ⟨S32x2048x2048, .f32⟩
  | .hbm, ⟨13, _⟩ => ⟨S_, .f32⟩
  | .hbm, ⟨14, _⟩ => ⟨S32x2048, .f32⟩
  | .hbm, ⟨15, _⟩ => ⟨S_, .f32⟩
  | .hbm, ⟨16, _⟩ => ⟨S32x2048, .f32⟩
  | .hbm, ⟨17, _⟩ => ⟨S32x2048, .f32⟩
  | .hbm, ⟨18, _⟩ => ⟨S32x2048x1, .f32⟩
  | .hbm, ⟨19, _⟩ => ⟨S32x2048x2048, .f32⟩
  | .hbm, ⟨20, _⟩ => ⟨S32x2048x2048, .f32⟩
  | .hbm, ⟨21, _⟩ => ⟨S32x2048x2048, .f32⟩
  | .hbm, ⟨22, _⟩ => ⟨S_, .f32⟩
  | .hbm, ⟨23, _⟩ => ⟨S32x2048, .f32⟩
  | .hbm, ⟨24, _⟩ => ⟨S32x2048x1, .f32⟩
  | .hbm, ⟨25, _⟩ => ⟨S32x2048x2048, .f32⟩
  | .hbm, ⟨26, _⟩ => ⟨S32x2048x2048, .f32⟩
  | .hbm, ⟨27, _⟩ => ⟨S32x2048x64, .f32⟩
  | _, _ => ⟨S32x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_call0_v0 : Ref sig .tc := ⟨.hbm, 10, rfl⟩
abbrev main_call0_v1 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩

abbrev nD : Nat := 1
abbrev τ : Topo := Topo.v7x

variable {F : FTy → Type} [FloatOps F]

class Facts₀ : Prop where
  bcast_S_S32x2048x2048 : S_.BroadcastsInDim S32x2048x2048 (![] : Fin 0 → Fin S32x2048x2048.rank)
  bcast_S_S2048x2048 : S_.BroadcastsInDim S2048x2048 (![] : Fin 0 → Fin S2048x2048.rank)
  bcast_S2048x2048_S32x2048x2048_1_2 : S2048x2048.BroadcastsInDim S32x2048x2048 (![1, 2] : Fin 2 → Fin S32x2048x2048.rank)
  reducesTo_S32x2048x2048_S32x2048_d2 : S32x2048x2048.ReducesTo [2] S32x2048
  h_S_ : 0 < S_.numel
  bcast_S_S32x2048 : S_.BroadcastsInDim S32x2048 (![] : Fin 0 → Fin S32x2048.rank)
  bcast_S32x2048_S32x2048x1_0_1 : S32x2048.BroadcastsInDim S32x2048x1 (![0, 1] : Fin 2 → Fin S32x2048x1.rank)
  bcast_S32x2048x1_S32x2048x2048_0_1_2 : S32x2048x1.BroadcastsInDim S32x2048x2048 (![0, 1, 2] : Fin 3 → Fin S32x2048x2048.rank)
  dot_S32x2048x64_S32x2048x64_S32x2048x2048_2_2_1_1_0_0_wf : DotDims.WF S32x2048x64 S32x2048x64 S32x2048x2048 [2] [2] [1] [1] [0] [0]
  dot_S32x2048x2048_S32x2048x64_S32x2048x64_2_1_1_2_0_0_wf : DotDims.WF S32x2048x2048 S32x2048x64 S32x2048x64 [2] [1] [1] [2] [0] [0]

variable [Facts₀]

def dot_S32x2048x64_S32x2048x64_S32x2048x2048_2_2_1_1_0_0 : DotDims S32x2048x64 S32x2048x64 S32x2048x2048 where
  lhsContracting := [2]
  rhsContracting := [2]
  lhsNonContracting := [1]
  rhsNonContracting := [1]
  lhsBatch := [0]
  rhsBatch := [0]
  wf := dot_S32x2048x64_S32x2048x64_S32x2048x2048_2_2_1_1_0_0_wf
def dot_S32x2048x2048_S32x2048x64_S32x2048x64_2_1_1_2_0_0 : DotDims S32x2048x2048 S32x2048x64 S32x2048x64 where
  lhsContracting := [2]
  rhsContracting := [1]
  lhsNonContracting := [1]
  rhsNonContracting := [2]
  lhsBatch := [0]
  rhsBatch := [0]
  wf := dot_S32x2048x2048_S32x2048x64_S32x2048x64_2_1_1_2_0_0_wf

class Facts : Prop extends Facts₀ where

variable [Facts]
-- ==== Proof.AttentionRow.lean ====
/-
  One row of masked dot-product attention over the extended reals, as a function of a query
  vector, the table of key vectors (which are also the value vectors) and one row of the
  adjacency mask.

  For a query `q : Fin 64 → EReal`, keys `K : Fin 2048 → Fin 64 → EReal` and mask words
  `a : Fin 2048 → BitVec 32`:
    * the logit against key `m` is `(∑ d, q d * K m d) * s` where the mask word is positive as a
      signed integer, and the fill value `f` elsewhere;
    * the row's peak is the maximum of the logits, taken from `-∞`;
    * the weight of key `m` is `exp (logit m - peak)`, the row's mass the sum of the weights;
    * the output at feature `d` is `∑ m, (weight m / mass) * K m d`.
  The scale `s`, the fill `f` and `-∞` are kept as the float words both programs print; no
  property of their values is used anywhere.

  The whole result array is this row function at every (batch, node): the query is the node's own
  feature vector, the keys are the batch's feature vectors, the mask row is the node's row of
  the adjacency matrix.
-/
import Idealize.ShloMosaic.PureOps.Ideal
import Idealize.ShloMosaic.PureOps.Ideal.Laws
import Idealize.ShloMosaic.Lib.ValueIdx
import Mathlib.Data.Finset.Fold

noncomputable section

namespace Cert.AttentionRow

open Idealize.ShloMosaic Idealize.ShloMosaic.ValueIdx

/-- The word of the scale `1/8`. -/
abbrev scaleW : BitVec 32 := 0x3E000000#32
/-- The word of the finite fill value written where the mask is not positive. -/
abbrev fillW : BitVec 32 := 0xD368D4A5#32
/-- The word of `-∞`, from which a row's maximum is taken. -/
abbrev negInfW : BitVec 32 := 0xFF800000#32

/-- The logit of a query against key `m`: the scaled inner product where the mask word is
    positive, the fill value elsewhere. -/
def logit (q : Fin 64 → EReal) (K : Fin 2048 → Fin 64 → EReal) (a : Fin 2048 → BitVec 32) (m : Fin 2048) : EReal :=
  Scalar.select (IntOp.cmpi .sgt (a m) 0#32)
    ((∑ d : Fin 64, q d * K m d) * Ideal.ofBits .f32 scaleW) (Ideal.ofBits .f32 fillW)

/-- The largest logit of the row, taken from `-∞`. -/
def peak (q : Fin 64 → EReal) (K : Fin 2048 → Fin 64 → EReal) (a : Fin 2048 → BitVec 32) : EReal :=
  (Finset.univ : Finset (Fin 2048)).fold max (Ideal.ofBits .f32 negInfW) (logit q K a)

/-- The unnormalised weight of key `m`. -/
def weight (q : Fin 64 → EReal) (K : Fin 2048 → Fin 64 → EReal) (a : Fin 2048 → BitVec 32) (m : Fin 2048) : EReal :=
  Ideal.exp (logit q K a m - peak q K a)

/-- The sum of the row's weights. -/
def mass (q : Fin 64 → EReal) (K : Fin 2048 → Fin 64 → EReal) (a : Fin 2048 → BitVec 32) : EReal :=
  ∑ m : Fin 2048, weight q K a m

/-- The row's output at feature `d`: the keys averaged with the normalised weights. -/
def out (q : Fin 64 → EReal) (K : Fin 2048 → Fin 64 → EReal) (a : Fin 2048 → BitVec 32) (d : Fin 64) : EReal :=
  ∑ m : Fin 2048, Ideal.div (weight q K a m) (mass q K a) * K m d

/-- A maximum taken from `b` is at least `b`, so taking the maximum with `b` once more changes nothing. -/
theorem max_fold_max_self {ι : Type} (s : Finset ι) (b : EReal) (f : ι → EReal) :
    max b (s.fold max b f) = s.fold max b f :=
  max_eq_right ((Finset.le_fold_max b).mpr (Or.inl le_rfl))

/-! ## The whole array -/

abbrev Feat : Shape := ⟨3, ![32, 2048, 64]⟩
abbrev Adj : Shape := ⟨2, ![2048, 2048]⟩

/-- The result array: at (batch `b`, node `n`, feature `d`) the attention row of node `n`'s features
    against all the features of batch `b`, under row `n` of the adjacency matrix. -/
def attend (x : FVec Ideal Feat .f32) (adj : IVec Adj 32) : FVec Ideal Feat .f32 := fun i =>
  out (fun d => x (ix3 (i 0) (i 1) d)) (fun m d => x (ix3 (i 0) m d)) (fun m => adj (ix2 (i 1) m)) (i 2)

end Cert.AttentionRow

end
-- ==== Proof.KernelProducts.lean ====
/-
  The two matrix products of the kernel body, read at one element over the extended reals.

  The body forms the logits of a tile of 128 query rows against all 2048 key rows as a product
  that contracts the feature axis of BOTH operands (queries [128, 64] against keys [2048, 64]),
  and the tile's output as a product of the normalised weights [128, 2048] with the same key
  table [2048, 64], contracting the key axis. Into a zero accumulator each is the plain sum
  over the contracted coordinate:
    logits (r, n) = ∑ k, queries (r, k) * keys (n, k)
    output (r, d) = ∑ n, weights (r, n) * keys (n, d).
-/
import proofs.«422148_j68367289417953_3_alg».proof.Proof.Gen.KernelIdeal
import Idealize.ShloMosaic.PureOps.Ideal.Laws
import Idealize.ShloMosaic.Lib.ValueIdx

noncomputable section

namespace Cert.KernelIdeal.Products

open Cert.KernelIdeal Cert.KernelIdeal.Gen Idealize.ShloMosaic Idealize.ShloMosaic.ValueIdx

/-! ## Queries against keys: both operands contract their feature axis -/

theorem qk_lhs_0 (i : S128x2048.Idx) (q : dot_S128x64_S2048x64_S128x2048_1_1_0_0_n_n.contr.Idx) :
    (dot_S128x64_S2048x64_S128x2048_1_1_0_0_n_n.lhsIdx i q 0).val = (i 0).val := by
  unfold DotDims.lhsIdx
  rw [dif_neg (show ¬(0 : Fin S128x64.rank) ∈ dot_S128x64_S2048x64_S128x2048_1_1_0_0_n_n.lhsBatch by decide), dif_pos (show (0 : Fin S128x64.rank) ∈ dot_S128x64_S2048x64_S128x2048_1_1_0_0_n_n.lhsNonContracting by decide)]
  rfl
theorem qk_lhs_1 (i : S128x2048.Idx) (q : dot_S128x64_S2048x64_S128x2048_1_1_0_0_n_n.contr.Idx) :
    (dot_S128x64_S2048x64_S128x2048_1_1_0_0_n_n.lhsIdx i q 1).val = (q ⟨0, by decide⟩).val :=
  dot_S128x64_S2048x64_S128x2048_1_1_0_0_n_n.lhsIdx_val_of_single rfl i q
theorem qk_rhs_0 (i : S128x2048.Idx) (q : dot_S128x64_S2048x64_S128x2048_1_1_0_0_n_n.contr.Idx) :
    (dot_S128x64_S2048x64_S128x2048_1_1_0_0_n_n.rhsIdx i q 0).val = (i 1).val := by
  unfold DotDims.rhsIdx
  rw [dif_neg (show ¬(0 : Fin S2048x64.rank) ∈ dot_S128x64_S2048x64_S128x2048_1_1_0_0_n_n.rhsBatch by decide), dif_pos (show (0 : Fin S2048x64.rank) ∈ dot_S128x64_S2048x64_S128x2048_1_1_0_0_n_n.rhsNonContracting by decide)]
  rfl
theorem qk_rhs_1 (i : S128x2048.Idx) (q : dot_S128x64_S2048x64_S128x2048_1_1_0_0_n_n.contr.Idx) :
    (dot_S128x64_S2048x64_S128x2048_1_1_0_0_n_n.rhsIdx i q 1).val = (q ⟨0, by decide⟩).val :=
  dot_S128x64_S2048x64_S128x2048_1_1_0_0_n_n.rhsIdx_val_of_single rfl i q

/-- The logits' product at (r, n): the inner product of query row `r` with key row `n`. -/
theorem qk_apply {φ₁ φ₂ : FTy} (qs : FVec Ideal S128x64 φ₁) (ks : FVec Ideal S2048x64 φ₂) (r : Fin 128) (n : Fin 2048) :
    matmul dot_S128x64_S2048x64_S128x2048_1_1_0_0_n_n none qs ks (constant S128x2048 .f32 0x00000000#32) (ix2 r n)
      = ∑ k : Fin 64, qs (ix2 r k) * ks (ix2 n k) := by
  simp only [matmul]
  rw [Ideal.matmul_constant_zero_apply, ← Equiv.sum_comp (contrEquiv1 dot_S128x64_S2048x64_S128x2048_1_1_0_0_n_n 64 rfl rfl).symm]
  refine Finset.sum_congr rfl fun k _ => ?_
  have hk := contrEquiv1_symm_val dot_S128x64_S2048x64_S128x2048_1_1_0_0_n_n 64 rfl rfl k
  have el : dot_S128x64_S2048x64_S128x2048_1_1_0_0_n_n.lhsIdx (ix2 r n) ((contrEquiv1 dot_S128x64_S2048x64_S128x2048_1_1_0_0_n_n 64 rfl rfl).symm k) = ix2 r k := funext fun a => Fin.ext (by
    match a with
    | ⟨0, _⟩ => exact qk_lhs_0 _ _
    | ⟨1, _⟩ => exact (qk_lhs_1 _ _).trans hk)
  have er : dot_S128x64_S2048x64_S128x2048_1_1_0_0_n_n.rhsIdx (ix2 r n) ((contrEquiv1 dot_S128x64_S2048x64_S128x2048_1_1_0_0_n_n 64 rfl rfl).symm k) = ix2 n k := funext fun a => Fin.ext (by
    match a with
    | ⟨0, _⟩ => exact qk_rhs_0 _ _
    | ⟨1, _⟩ => exact (qk_rhs_1 _ _).trans hk)
  rw [el, er]

/-! ## Weights against keys: the key axis is contracted -/

theorem wk_lhs_0 (i : S128x64.Idx) (q : dot_S128x2048_S2048x64_S128x64_1_0_0_1_n_n.contr.Idx) :
    (dot_S128x2048_S2048x64_S128x64_1_0_0_1_n_n.lhsIdx i q 0).val = (i 0).val := by
  unfold DotDims.lhsIdx
  rw [dif_neg (show ¬(0 : Fin S128x2048.rank) ∈ dot_S128x2048_S2048x64_S128x64_1_0_0_1_n_n.lhsBatch by decide), dif_pos (show (0 : Fin S128x2048.rank) ∈ dot_S128x2048_S2048x64_S128x64_1_0_0_1_n_n.lhsNonContracting by decide)]
  rfl
theorem wk_lhs_1 (i : S128x64.Idx) (q : dot_S128x2048_S2048x64_S128x64_1_0_0_1_n_n.contr.Idx) :
    (dot_S128x2048_S2048x64_S128x64_1_0_0_1_n_n.lhsIdx i q 1).val = (q ⟨0, by decide⟩).val :=
  dot_S128x2048_S2048x64_S128x64_1_0_0_1_n_n.lhsIdx_val_of_single rfl i q
theorem wk_rhs_0 (i : S128x64.Idx) (q : dot_S128x2048_S2048x64_S128x64_1_0_0_1_n_n.contr.Idx) :
    (dot_S128x2048_S2048x64_S128x64_1_0_0_1_n_n.rhsIdx i q 0).val = (q ⟨0, by decide⟩).val :=
  dot_S128x2048_S2048x64_S128x64_1_0_0_1_n_n.rhsIdx_val_of_single rfl i q
theorem wk_rhs_1 (i : S128x64.Idx) (q : dot_S128x2048_S2048x64_S128x64_1_0_0_1_n_n.contr.Idx) :
    (dot_S128x2048_S2048x64_S128x64_1_0_0_1_n_n.rhsIdx i q 1).val = (i 1).val := by
  unfold DotDims.rhsIdx
  rw [dif_neg (show ¬(1 : Fin S2048x64.rank) ∈ dot_S128x2048_S2048x64_S128x64_1_0_0_1_n_n.rhsBatch by decide), dif_pos (show (1 : Fin S2048x64.rank) ∈ dot_S128x2048_S2048x64_S128x64_1_0_0_1_n_n.rhsNonContracting by decide)]
  rfl

/-- The output's product at (r, d): the key table's column `d` averaged with weight row `r`. -/
theorem wk_apply {φ₁ φ₂ : FTy} (ws : FVec Ideal S128x2048 φ₁) (ks : FVec Ideal S2048x64 φ₂) (r : Fin 128) (d : Fin 64) :
    matmul dot_S128x2048_S2048x64_S128x64_1_0_0_1_n_n none ws ks (constant S128x64 .f32 0x00000000#32) (ix2 r d)
      = ∑ n : Fin 2048, ws (ix2 r n) * ks (ix2 n d) := by
  simp only [matmul]
  rw [Ideal.matmul_constant_zero_apply, ← Equiv.sum_comp (contrEquiv1 dot_S128x2048_S2048x64_S128x64_1_0_0_1_n_n 2048 rfl rfl).symm]
  refine Finset.sum_congr rfl fun k _ => ?_
  have hk := contrEquiv1_symm_val dot_S128x2048_S2048x64_S128x64_1_0_0_1_n_n 2048 rfl rfl k
  have el : dot_S128x2048_S2048x64_S128x64_1_0_0_1_n_n.lhsIdx (ix2 r d) ((contrEquiv1 dot_S128x2048_S2048x64_S128x64_1_0_0_1_n_n 2048 rfl rfl).symm k) = ix2 r k := funext fun a => Fin.ext (by
    match a with
    | ⟨0, _⟩ => exact wk_lhs_0 _ _
    | ⟨1, _⟩ => exact (wk_lhs_1 _ _).trans hk)
  have er : dot_S128x2048_S2048x64_S128x64_1_0_0_1_n_n.rhsIdx (ix2 r d) ((contrEquiv1 dot_S128x2048_S2048x64_S128x64_1_0_0_1_n_n 2048 rfl rfl).symm k) = ix2 k d := funext fun a => Fin.ext (by
    match a with
    | ⟨0, _⟩ => exact (wk_rhs_0 _ _).trans hk
    | ⟨1, _⟩ => exact wk_rhs_1 _ _)
  rw [el, er]

end Cert.KernelIdeal.Products

end
-- ==== Proof.KernelReductions.lean ====
/-
  The two row reductions of the kernel body, read at one element over the extended reals.

  The body reduces a tile [128, 2048] along its key axis twice — once with the maximum, from
  `-∞`, and once with the sum, from zero —, recasts the 128 results as a column [128, 1] and
  spreads the column back over the tile. At (r, n) the spread value is row `r`'s reduction,
  whatever `n` is:
    spread-max (r, n) = the maximum over k of tile (r, k), taken from `-∞`
    spread-sum (r, n) = ∑ k, tile (r, k).
-/
import Idealize.ShloMosaic.PureOps.Ideal.Laws
import Idealize.ShloMosaic.Lib.ValueIdx
import Idealize.ShloMosaic.Lib.Pipeline.Value

noncomputable section

namespace Cert.KernelReductions

open Idealize.ShloMosaic Idealize.ShloMosaic.ValueIdx

abbrev Tile : Shape := ⟨2, ![128, 2048]⟩
abbrev Rows : Shape := ⟨1, ![128]⟩
abbrev Col : Shape := ⟨2, ![128, 1]⟩

/-- Row `r`'s reduced index with key coordinate `k` put back is (r, k). -/
theorem lift_row (h : Tile.Reduces [1] Rows) (r : Fin 128) (k : Fin 2048) : h.lift (ix1 r) k = ix2 r k := by
  funext c
  apply Fin.ext
  match c with
  | ⟨0, _⟩ => rfl
  | ⟨1, _⟩ => rfl

/-- A column spread over the tile reads, at (r, n), the column's entry of row `r`; the column
    recast from the row vector reads that vector at `r`. -/
theorem spread_col {α : Type} (v : Rows.Idx → α) (h2 : Rows.ShapeCasts Col) (h3 : Col.Broadcasts Tile) (r : Fin 128) (n : Fin 2048) :
    broadcastTo Tile (shapeCast Col v h2) h3 (ix2 r n) = v (ix1 r) := by
  refine (broadcastTo_apply _ h3 (ix2 r n) (ix2 r (0 : Fin 1)) (fun a => ?_)).trans ?_
  · match a with
    | ⟨0, _⟩ => show r.val = if (128 : Nat) = 1 then 0 else r.val; rw [if_neg (by decide)]
    | ⟨1, _⟩ => show 0 = if (1 : Nat) = 1 then 0 else n.val; rw [if_pos rfl]
  · refine shapeCast_apply v h2 (ix2 r (0 : Fin 1)) (ix1 r) ?_
    rw [Shape.rowMajor_val_one, Shape.rowMajor_val_two]
    show r.val = r.val * 1 + 0
    omega

/-- The row maximum, spread: at (r, n) the maximum of row `r` of the tile, taken from the
    accumulator's value. -/
theorem spread_max (v : FVec Ideal Tile .f32) (acc : BitVec 32) (h : Tile.Reduces [1] Rows) (hφ : FKind.Formats .f32)
    (hacc : acc = FKind.maximumf.neutral .f32 hφ) (h2 : Rows.ShapeCasts Col) (h3 : Col.Broadcasts Tile) (r : Fin 128) (n : Fin 2048) :
    broadcastTo Tile (shapeCast Col (multiReduction .maximumf [1] Rows v acc h hφ hacc) h2) h3 (ix2 r n)
      = (Finset.univ : Finset (Fin 2048)).fold max (Ideal.ofBits .f32 acc) (fun k => v (ix2 r k)) := by
  refine (spread_col _ h2 h3 r n).trans ?_
  refine (Ideal.multiReduction_maximumf_single v acc h hφ hacc (ix1 r)).trans ?_
  show (Finset.univ : Finset (Fin 2048)).fold max (Ideal.ofBits .f32 acc) (v ∘ h.lift (ix1 r)) = _
  exact congrArg (fun f : Fin 2048 → EReal => (Finset.univ : Finset (Fin 2048)).fold max (Ideal.ofBits .f32 acc) f)
    (funext fun k => congrArg v (lift_row h r k))

/-- The row sum, spread: at (r, n) the sum of row `r` of the tile. -/
theorem spread_sum (v : FVec Ideal Tile .f32) (acc : BitVec 32) (h : Tile.Reduces [1] Rows) (hφ : FKind.Formats .f32)
    (hacc : acc = FKind.add.neutral .f32 hφ) (h2 : Rows.ShapeCasts Col) (h3 : Col.Broadcasts Tile) (r : Fin 128) (n : Fin 2048) :
    broadcastTo Tile (shapeCast Col (multiReduction .add [1] Rows v acc h hφ hacc) h2) h3 (ix2 r n)
      = ∑ k : Fin 2048, v (ix2 r k) := by
  refine (spread_col _ h2 h3 r n).trans ?_
  refine (Ideal.multiReduction_add_single v acc h hφ hacc (ix1 r)).trans ?_
  show ∑ k : Fin 2048, v (h.lift (ix1 r) k) = _
  exact Finset.sum_congr rfl fun k _ => congrArg v (lift_row h r k)

end Cert.KernelReductions

end
-- ==== Proof.KernelRow.lean ====
/-
  The kernel body's stored value, read at one element: one attention row.

  At a grid point the body loads a tile of 128 query rows `qs : [1, 128, 64]`, the batch's whole
  key table `ks : [1, 2048, 64]` and the tile's 128 mask rows `ms : [128, 2048]`, and stores a
  block [1, 128, 64]. Dropping the unit axis, its stages are
    logits (r, n)     = the scaled inner product of query r with key n where the mask word is
                        positive, the fill value elsewhere;
    weights (r, n)    = exp (logits (r, n) - the maximum of row r);
    normalised (r, n) = weights (r, n) / the sum of row r;
    block (r, d)      = ∑ n, normalised (r, n) * key n at d.
  Changes of float format are the identity over the extended reals. So the stored block at
  (0, r, d) is the attention row (`AttentionRow.out`) of query row `r`, the key table and mask
  row `r`, at feature `d`.
-/
import proofs.«422148_j68367289417953_3_alg».proof.Proof.Gen.KernelIdeal.Skeleton
import proofs.«422148_j68367289417953_3_alg».proof.Proof.AttentionRow
import proofs.«422148_j68367289417953_3_alg».proof.Proof.KernelProducts
import proofs.«422148_j68367289417953_3_alg».proof.Proof.KernelReductions

noncomputable section

namespace Cert.KernelIdeal.Row

open Cert.KernelIdeal Cert.KernelIdeal.Gen Idealize.ShloMosaic Idealize.ShloMosaic.ValueIdx
open Cert (AttentionRow.logit AttentionRow.peak AttentionRow.weight AttentionRow.mass AttentionRow.out)

variable (qs : Vec Ideal S1x128x64 .bf16) (ks : Vec Ideal S1x2048x64 .bf16) (ms : Vec Ideal S128x2048 .i32)

/-! ## The stages, named -/

/-- The query tile without its unit axis. -/
def queries : FVec Ideal S128x64 .bf16 := shapeCast S128x64 qs shapeCasts_S1x128x64_S128x64
/-- The key table without its unit axis. -/
def keys : FVec Ideal S2048x64 .bf16 := shapeCast S2048x64 ks shapeCasts_S1x2048x64_S2048x64
/-- The masked, scaled logits of the tile. -/
def logits : FVec Ideal S128x2048 .f32 :=
  select (cmpi .sgt ms (broadcast S128x2048 0#32))
    (mulf (matmul dot_S128x64_S2048x64_S128x2048_1_1_0_0_n_n none (queries qs) (keys ks) (constant S128x2048 .f32 0x00000000#32))
      (broadcast S128x2048 (Scalar.ofBits .f32 0x3E000000#32)))
    (broadcast S128x2048 (Scalar.ofBits .f32 0xD368D4A5#32))
/-- The unnormalised weights: the exponential of each logit less its row's maximum. -/
def weights : FVec Ideal S128x2048 .f32 :=
  exp (subf (logits qs ks ms)
    (broadcastTo S128x2048 (shapeCast S128x1 (multiReduction .maximumf [1] S128 (logits qs ks ms) 0xFF800000#32 reduces_S128x2048_S128 (.inl rfl) rfl) shapeCasts_S128_S128x1) broadcasts_S128x1_S128x2048))
/-- The weights divided by their row's sum. -/
def normalised : FVec Ideal S128x2048 .f32 :=
  divf (weights qs ks ms)
    (broadcastTo S128x2048 (shapeCast S128x1 (multiReduction .add [1] S128 (weights qs ks ms) 0x00000000#32 reduces_S128x2048_S128 (.inl rfl) rfl) shapeCasts_S128_S128x1) broadcasts_S128x1_S128x2048)

/-- The body's stored value is the product of the normalised weights with the key table, with
    the unit axis put back: the stages above, composed. -/
theorem pay_eq : k0_pay1 (F := Ideal) qs ks ms
    = shapeCast S1x128x64 (matmul dot_S128x2048_S2048x64_S128x64_1_0_0_1_n_n none (truncf .bf16 (normalised qs ks ms) bitsLt_bf16_f32) (keys ks) (constant S128x64 .f32 0x00000000#32)) shapeCasts_S128x64_S1x128x64 := rfl

/-! ## Each stage at an element -/

/-- Query row `r` at feature `k`. -/
theorem queries_apply (r : Fin 128) (k : Fin 64) : queries qs (ix2 r k) = qs (ix3 (0 : Fin 1) r k) := by
  refine shapeCast_apply qs _ (ix2 r k) (ix3 (0 : Fin 1) r k) ?_
  rw [Shape.rowMajor_val_two, Shape.rowMajor_val_three]
  show ((0 : Nat) * 128 + r.val) * 64 + k.val = r.val * 64 + k.val
  omega

/-- Key row `n` at feature `k`. -/
theorem keys_apply (n : Fin 2048) (k : Fin 64) : keys ks (ix2 n k) = ks (ix3 (0 : Fin 1) n k) := by
  refine shapeCast_apply ks _ (ix2 n k) (ix3 (0 : Fin 1) n k) ?_
  rw [Shape.rowMajor_val_two, Shape.rowMajor_val_three]
  show ((0 : Nat) * 2048 + n.val) * 64 + k.val = n.val * 64 + k.val
  omega

/-- The row data of query row `r`: its feature vector, the key table, its mask row. -/
abbrev qRow (r : Fin 128) : Fin 64 → EReal := fun k => qs (ix3 (0 : Fin 1) r k)
abbrev kTab : Fin 2048 → Fin 64 → EReal := fun n k => ks (ix3 (0 : Fin 1) n k)
abbrev mRow (r : Fin 128) : Fin 2048 → BitVec 32 := fun n => ms (ix2 r n)

/-- The logit of query row `r` against key `n`. -/
theorem logits_apply (r : Fin 128) (n : Fin 2048) :
    logits qs ks ms (ix2 r n) = AttentionRow.logit (qRow qs r) (kTab ks) (mRow ms r) n := by
  unfold logits AttentionRow.logit
  show Scalar.select (IntOp.cmpi .sgt (ms (ix2 r n)) 0#32)
      (matmul dot_S128x64_S2048x64_S128x2048_1_1_0_0_n_n none (queries qs) (keys ks) (constant S128x2048 .f32 0x00000000#32) (ix2 r n) * Ideal.ofBits .f32 0x3E000000#32)
      (Ideal.ofBits .f32 0xD368D4A5#32) = _
  rw [Products.qk_apply]
  simp only [queries_apply, keys_apply]

/-- The maximum of logit row `r`, spread over the row. -/
theorem peak_apply (r : Fin 128) (n : Fin 2048) :
    broadcastTo S128x2048 (shapeCast S128x1 (multiReduction .maximumf [1] S128 (logits qs ks ms) 0xFF800000#32 reduces_S128x2048_S128 (.inl rfl) rfl) shapeCasts_S128_S128x1) broadcasts_S128x1_S128x2048 (ix2 r n)
      = AttentionRow.peak (qRow qs r) (kTab ks) (mRow ms r) := by
  refine (KernelReductions.spread_max (logits qs ks ms) 0xFF800000#32 reduces_S128x2048_S128 (.inl rfl) rfl shapeCasts_S128_S128x1 broadcasts_S128x1_S128x2048 r n).trans ?_
  unfold AttentionRow.peak
  exact congrArg (fun f : Fin 2048 → EReal => (Finset.univ : Finset (Fin 2048)).fold max (Ideal.ofBits .f32 0xFF800000#32) f)
    (funext fun k => logits_apply qs ks ms r k)

/-- The weight of key `n` in row `r`. -/
theorem weights_apply (r : Fin 128) (n : Fin 2048) :
    weights qs ks ms (ix2 r n) = AttentionRow.weight (qRow qs r) (kTab ks) (mRow ms r) n := by
  unfold weights AttentionRow.weight
  show Ideal.exp (logits qs ks ms (ix2 r n) - _) = _
  rw [logits_apply, peak_apply]

/-- The sum of weight row `r`, spread over the row. -/
theorem mass_apply (r : Fin 128) (n : Fin 2048) :
    broadcastTo S128x2048 (shapeCast S128x1 (multiReduction .add [1] S128 (weights qs ks ms) 0x00000000#32 reduces_S128x2048_S128 (.inl rfl) rfl) shapeCasts_S128_S128x1) broadcasts_S128x1_S128x2048 (ix2 r n)
      = AttentionRow.mass (qRow qs r) (kTab ks) (mRow ms r) := by
  refine (KernelReductions.spread_sum (weights qs ks ms) 0x00000000#32 reduces_S128x2048_S128 (.inl rfl) rfl shapeCasts_S128_S128x1 broadcasts_S128x1_S128x2048 r n).trans ?_
  unfold AttentionRow.mass
  exact Finset.sum_congr rfl fun k _ => weights_apply qs ks ms r k

/-- The normalised weight of key `n` in row `r`. -/
theorem normalised_apply (r : Fin 128) (n : Fin 2048) :
    normalised qs ks ms (ix2 r n)
      = Ideal.div (AttentionRow.weight (qRow qs r) (kTab ks) (mRow ms r) n) (AttentionRow.mass (qRow qs r) (kTab ks) (mRow ms r)) := by
  unfold normalised
  show Ideal.div (weights qs ks ms (ix2 r n)) _ = _
  rw [weights_apply, mass_apply]

/-! ## The stored block at an element -/

/-- THE STORED BLOCK at (0, r, d): the attention row of query row `r` at feature `d`. -/
theorem pay_apply (z : Fin 1) (r : Fin 128) (d : Fin 64) :
    k0_pay1 (F := Ideal) qs ks ms (ix3 z r d) = AttentionRow.out (qRow qs r) (kTab ks) (mRow ms r) d := by
  rw [pay_eq]
  refine (shapeCast_apply _ shapeCasts_S128x64_S1x128x64 (ix3 z r d) (ix2 r d) ?_).trans ?_
  · rw [Shape.rowMajor_val_two, Shape.rowMajor_val_three]
    show r.val * 64 + d.val = (z.val * 128 + r.val) * 64 + d.val
    have := z.isLt
    omega
  · refine (Products.wk_apply _ _ r d).trans ?_
    unfold AttentionRow.out
    refine Finset.sum_congr rfl fun n _ => ?_
    show normalised qs ks ms (ix2 r n) * keys ks (ix2 n d) = _
    rw [normalised_apply, keys_apply]

end Cert.KernelIdeal.Row

end
-- ==== Proof.KernelTile.lean ====
/-
  What one grid point leaves in the output block, as a function of the two staged arrays.

  At grid point (b, j) — batch `b`, query tile `j` — the body loads, from the staged feature
  array `x : [32, 2048, 64]`, the 128 rows `128 j … 128 j + 127` of batch `b` (its queries) and
  all 2048 rows of batch `b` (its keys), and from the staged adjacency matrix `a : [2048, 2048]`
  the rows `128 j … 128 j + 127`. It stores once, through the whole output block. So the block
  ends holding, at (0, r, d), the attention row of node `128 j + r` of batch `b`:
    query  k ↦ x (b, 128 j + r, k),   keys  (n, k) ↦ x (b, n, k),   mask  n ↦ a (128 j + r, n).
-/
import proofs.«422148_j68367289417953_3_alg».proof.Proof.Gen.KernelIdeal.Frame
import proofs.«422148_j68367289417953_3_alg».proof.Proof.KernelRow
import Idealize.ShloMosaic.Lib.Pipeline.Value

set_option maxRecDepth 16384

noncomputable section

namespace Cert.KernelIdeal.Tile

open Cert.KernelIdeal Cert.KernelIdeal.Gen Idealize.ShloMosaic Idealize.ShloMosaic.TcCoe Idealize.ShloMosaic.Tactic
open Idealize.ShloMosaic.ValueIdx
open Idealize.SL Idealize.SL.Sem

/-! ## The run's one store carries the payload of its three loads -/

section AnyValues
variable {F : FTy → Type} [FloatOps F]

theorem zero_offsets : (![0, 0, 0] : Fin 3 → Nat) = fun _ => 0 := funext fun a => by fin_cases a <;> rfl

/-- The output block after the body: the stored value, of the query tile, the key table and
    the mask rows loaded from the staged contents `x0`, `x1` at the point's offsets. -/
theorem out_eq (c : Dev nD) (i : grid0.Coords) (arg2 : Memref sig .tc .vmem S32x2048x64 .bf16) (harg2 : arg2.IsWhole) (arg3 : Memref sig .tc .vmem S2048x2048 .i32) (harg3 : arg3.IsWhole) (arg4 : Memref sig .tc .vmem S1x128x64 .f32) (harg4 : arg4.IsWhole)
    (x0 : Vec F S32x2048x64 .bf16) (x1 : Vec F S2048x2048 .i32) :
    out0_A_2 (F := F) c i arg2 harg2 arg3 harg3 arg4 harg4 x0 x1
      = k0_pay1 (View.ld x0 (Rect.unit (s := S32x2048x64) (k0_off1 i) S1x128x64.size (k0_off1_inb i)))
          (View.ld x0 (Rect.unit (s := S32x2048x64) (k0_off2 i) S1x2048x64.size (k0_off2_inb i)))
          (View.ld x1 (Rect.unit (s := S2048x2048) (k0_off3 i) S128x2048.size (k0_off3_inb i))) := by
  unfold out0_A_2
  rw [View.read_writes_eq_canon _ _ _ (cover0_A_2 c i arg2 harg2 arg3 harg3 arg4 harg4 x0 x1)]
  unfold kernelRun0_A
  dsimp only
  sl_unfold_words
  rw [View.canon_unit_zero zero_offsets]
  simp only [View.readAt_eq_ld, harg2.read_unread, harg3.read_unread]

end AnyValues

/-! ## The three loads at an element -/

section Loads
variable {F : FTy → Type} [FloatOps F]

/-- The query tile at (0, r, k) is the staged features at (b, 128 j + r, k). -/
theorem ld_queries (x0 : Vec F S32x2048x64 .bf16) (i : grid0.Coords) (z : Fin 1) (r : Fin 128) (k : Fin 64)
    (b : Fin 32) (hb : b.val = (i 0).val) (n : Fin 2048) (hn : n.val = 128 * (i 1).val + r.val) :
    View.ld x0 (Rect.unit (s := S32x2048x64) (k0_off1 i) S1x128x64.size (k0_off1_inb i)) (ix3 z r k) = x0 (ix3 b n k) := by
  show x0 _ = x0 _
  refine congrArg x0 (funext fun a => Fin.ext ?_)
  have hz : z.val = 0 := by have := z.isLt; omega
  match a with
  | ⟨0, _⟩ => show (k0_off1 i) 0 + 1 * z.val = b.val; rw [k0_off1_eq]; show (i 0).val + 1 * z.val = b.val; omega
  | ⟨1, _⟩ => show (k0_off1 i) 1 + 1 * r.val = n.val; rw [k0_off1_eq]; show 128 * (i 1).val + 1 * r.val = n.val; omega
  | ⟨2, _⟩ => show (k0_off1 i) 2 + 1 * k.val = k.val; rw [k0_off1_eq]; show 0 + 1 * k.val = k.val; omega

/-- The key table at (0, n, k) is the staged features at (b, n, k). -/
theorem ld_keys (x0 : Vec F S32x2048x64 .bf16) (i : grid0.Coords) (z : Fin 1) (n : Fin 2048) (k : Fin 64)
    (b : Fin 32) (hb : b.val = (i 0).val) :
    View.ld x0 (Rect.unit (s := S32x2048x64) (k0_off2 i) S1x2048x64.size (k0_off2_inb i)) (ix3 z n k) = x0 (ix3 b n k) := by
  show x0 _ = x0 _
  refine congrArg x0 (funext fun a => Fin.ext ?_)
  have hz : z.val = 0 := by have := z.isLt; omega
  match a with
  | ⟨0, _⟩ => show (k0_off2 i) 0 + 1 * z.val = b.val; rw [k0_off2_eq]; show (i 0).val + 1 * z.val = b.val; omega
  | ⟨1, _⟩ => show (k0_off2 i) 1 + 1 * n.val = n.val; rw [k0_off2_eq]; show 0 + 1 * n.val = n.val; omega
  | ⟨2, _⟩ => show (k0_off2 i) 2 + 1 * k.val = k.val; rw [k0_off2_eq]; show 0 + 1 * k.val = k.val; omega

/-- The mask rows at (r, n) are the staged adjacency matrix at (128 j + r, n). -/
theorem ld_mask (x1 : Vec F S2048x2048 .i32) (i : grid0.Coords) (r : Fin 128) (n : Fin 2048)
    (p : Fin 2048) (hp : p.val = 128 * (i 1).val + r.val) :
    View.ld x1 (Rect.unit (s := S2048x2048) (k0_off3 i) S128x2048.size (k0_off3_inb i)) (ix2 r n) = x1 (ix2 p n) := by
  show x1 _ = x1 _
  refine congrArg x1 (funext fun a => Fin.ext ?_)
  match a with
  | ⟨0, _⟩ => show (k0_off3 i) 0 + 1 * r.val = p.val; rw [k0_off3_eq]; show 128 * (i 1).val + 1 * r.val = p.val; omega
  | ⟨1, _⟩ => show (k0_off3 i) 1 + 1 * n.val = n.val; rw [k0_off3_eq]; show 0 + 1 * n.val = n.val; omega

end Loads

/-! ## The output block at an element -/

/-- THE OUTPUT BLOCK of grid point `i` at (0, r, d): the attention row of node `p = 128 j + r` of
    batch `b` over the staged contents. -/
theorem out_apply (c : Dev nD) (i : grid0.Coords) (arg2 : Memref sig .tc .vmem S32x2048x64 .bf16) (harg2 : arg2.IsWhole) (arg3 : Memref sig .tc .vmem S2048x2048 .i32) (harg3 : arg3.IsWhole) (arg4 : Memref sig .tc .vmem S1x128x64 .f32) (harg4 : arg4.IsWhole)
    (x0 : Vec Ideal S32x2048x64 .bf16) (x1 : Vec Ideal S2048x2048 .i32) (z : Fin 1) (r : Fin 128) (d : Fin 64)
    (b : Fin 32) (hb : b.val = (i 0).val) (p : Fin 2048) (hp : p.val = 128 * (i 1).val + r.val) :
    out0_A_2 (F := Ideal) c i arg2 harg2 arg3 harg3 arg4 harg4 x0 x1 (ix3 z r d)
      = AttentionRow.out (fun k => x0 (ix3 b p k)) (fun n k => x0 (ix3 b n k)) (fun n => x1 (ix2 p n)) d := by
  rw [out_eq, Row.pay_apply]
  have hq : Row.qRow (View.ld x0 (Rect.unit (s := S32x2048x64) (k0_off1 i) S1x128x64.size (k0_off1_inb i))) r = fun k => x0 (ix3 b p k) :=
    funext fun k => ld_queries x0 i 0 r k b hb p hp
  have hk : Row.kTab (View.ld x0 (Rect.unit (s := S32x2048x64) (k0_off2 i) S1x2048x64.size (k0_off2_inb i))) = fun n k => x0 (ix3 b n k) :=
    funext fun n => funext fun k => ld_keys x0 i 0 n k b hb
  have hm : Row.mRow (View.ld x1 (Rect.unit (s := S2048x2048) (k0_off3 i) S128x2048.size (k0_off3_inb i))) r = fun n => x1 (ix2 p n) :=
    funext fun n => ld_mask x1 i r n p hp
  rw [hq, hk, hm]

end Cert.KernelIdeal.Tile

end
-- ==== Proof.KernelBlock.lean ====
/-
  The kernel's result array after the run is the attention array of its two arguments.

  The grid has 512 points; point `t` is (batch `t / 16`, query tile `t % 16`). Both inputs are
  staged whole (their one block, at block index 0, is the array itself), and the feature array
  the kernel stages is the argument's change of float format, which over the extended reals is
  the argument. Point `t` writes back, to rows `128 (t % 16) … + 127` of batch `t / 16`, the block
  whose (0, r, d) entry is the attention row of node `128 (t % 16) + r` — the restriction of
  ONE array, the attention array, to the block. Every index (b, n, d) lies in the block of the
  point `16 b + n / 128`, so after the run the result array is the attention array.
-/
import proofs.«422148_j68367289417953_3_alg».proof.Proof.Gen.KernelIdeal.Frame
import proofs.«422148_j68367289417953_3_alg».proof.Proof.Gen.KernelIdeal.Value
import proofs.«422148_j68367289417953_3_alg».proof.Proof.KernelTile
import Idealize.ShloMosaic.Lib.Pipeline.Value
import Idealize.ShloMosaic.Lib.StableHlo.Run

set_option maxRecDepth 16384

noncomputable section

namespace Cert.KernelIdeal.Block

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

/-- The two argument arrays on core `c`, at their literal types. -/
abbrev feats (c : Dev nD) : FVec Ideal S32x2048x64 .f32 := m ((c : Thread nD τ).loc main_arg0)
abbrev adjm (c : Dev nD) : IVec S2048x2048 32 := m ((c : Thread nD τ).loc main_arg1)

/-! ## The grid's points and the windows' block indices -/

/-- Decided once over the 512 points: point `t` is (t / 16, t % 16); the inputs' block is block 0;
    the output's block index is (t / 16, t % 16, 0). -/
theorem idx_facts : ∀ t : Fin cfg0.N,
    (grid0.coords t 0).val = t.val / 16 ∧ (grid0.coords t 1).val = t.val % 16
    ∧ win0_0.index t (0 : Fin 3) = 0 ∧ win0_0.index t (1 : Fin 3) = 0 ∧ win0_0.index t (2 : Fin 3) = 0
    ∧ win0_1.index t (0 : Fin 2) = 0 ∧ win0_1.index t (1 : Fin 2) = 0
    ∧ win0_2.index t (0 : Fin 3) = t.val / 16 ∧ win0_2.index t (1 : Fin 3) = t.val % 16 ∧ win0_2.index t (2 : Fin 3) = 0 :=
  (by decide +kernel : ∀ t : Fin grid0.N, _)

/-! ## The staged arrays are the arguments -/

/-- The feature array the region finds staged is the argument's narrowing to bf16. -/
theorem staged_feats (c : Dev nD) :
    (V m c main_v0 : FVec Ideal S32x2048x64 .bf16) = truncf .bf16 (feats m c) bitsLt_bf16_f32 := by
  dsimp only [Gen.V, Gen.hostOps0]
  after_results <;> rfl

/-- The staged feature block at any point, at an index, is the argument there. -/
theorem xblk_apply (c : Dev nD) (t : Fin cfg0.N) (y : S32x2048x64.Idx) : iblk m c 0 t y = feats m c y := by
  show V m c main_v0 (((cfg0.win 0).blk t).view.emb y) = _
  have e : ((cfg0.win 0).blk t).view.emb y = y := by
    obtain ⟨-, -, e0, e1, e2, -⟩ := idx_facts t
    funext a; apply Fin.ext
    match a with
    | ⟨0, _⟩ => show win0_0.index t (0 : Fin 3) * 32 + 1 * (y 0).val = (y 0).val; omega
    | ⟨1, _⟩ => show win0_0.index t (1 : Fin 3) * 2048 + 1 * (y 1).val = (y 1).val; omega
    | ⟨2, _⟩ => show win0_0.index t (2 : Fin 3) * 64 + 1 * (y 2).val = (y 2).val; omega
  rw [e]
  exact congrFun (staged_feats m c) y

/-- The staged adjacency block at any point, at an index, is the argument there. -/
theorem ablk_apply (c : Dev nD) (t : Fin cfg0.N) (y : S2048x2048.Idx) : iblk m c 1 t y = adjm m c y := by
  show V m c main_arg1 (((cfg0.win 1).blk t).view.emb y) = _
  have e : ((cfg0.win 1).blk t).view.emb y = y := by
    obtain ⟨-, -, -, -, -, e0, e1, -⟩ := idx_facts t
    funext a; apply Fin.ext
    match a with
    | ⟨0, _⟩ => show win0_1.index t (0 : Fin 2) * 2048 + 1 * (y 0).val = (y 0).val; omega
    | ⟨1, _⟩ => show win0_1.index t (1 : Fin 2) * 2048 + 1 * (y 1).val = (y 1).val; omega
  rw [e, V_main_arg1]

/-! ## What a point writes back -/

/-- The attention array at (b, n, d) is the attention row of node `n` of batch `b`, at feature `d`. -/
theorem attend_at (x : FVec Ideal S32x2048x64 .f32) (a : IVec S2048x2048 32) (b : Fin 32) (n : Fin 2048) (d : Fin 64) :
    AttentionRow.attend x a (ix3 b n d)
      = AttentionRow.out (fun k => x (ix3 b n k)) (fun n' k => x (ix3 b n' k)) (fun n' => a (ix2 n n')) d := rfl

/-- WHAT POINT `t` WRITES BACK is block `t` of the attention array of the two arguments. -/
theorem flushed_eq (c : Dev nD) (t : Fin cfg0.N) :
    (dats m 0 c).flushed 2 t
      = ((cfg0.win 2).blk t).view.read (Elt Ideal) (AttentionRow.attend (feats m c) (adjm m c)) := by
  rw [Value.flushed2_A]
  funext j
  obtain ⟨g0, g1, -, -, -, -, -, e0, e1, e2⟩ := idx_facts t
  have hz : (j 0).val < 1 := (j 0).isLt
  have hr : (j 1).val < 128 := (j 1).isLt
  have hd : (j 2).val < 64 := (j 2).isLt
  have ht : t.val < 512 := Nat.lt_of_lt_of_eq t.isLt N_0
  have hj : j = ix3 (⟨(j 0).val, hz⟩ : Fin 1) (⟨(j 1).val, hr⟩ : Fin 128) (⟨(j 2).val, hd⟩ : Fin 64) :=
    funext fun a => Fin.ext (by match a with | ⟨0, _⟩ => rfl | ⟨1, _⟩ => rfl | ⟨2, _⟩ => rfl)
  show out0_A_2 c (grid0.coords t) (ms0_0 t) (hs0_0 t) (ms0_1 t) (hs0_1 t) (ms0_2 t) (hs0_2 t) (iblk m c 0 t) (iblk m c 1 t) j
      = AttentionRow.attend (feats m c) (adjm m c) (((cfg0.win 2).blk t).view.emb j)
  have hemb : ((cfg0.win 2).blk t).view.emb j
      = ix3 (⟨t.val / 16, by omega⟩ : Fin 32) (⟨128 * (t.val % 16) + (j 1).val, by omega⟩ : Fin 2048) (⟨(j 2).val, hd⟩ : Fin 64) := by
    funext a; apply Fin.ext
    match a with
    | ⟨0, _⟩ => show win0_2.index t (0 : Fin 3) * 1 + 1 * (j 0).val = t.val / 16; omega
    | ⟨1, _⟩ => show win0_2.index t (1 : Fin 3) * 128 + 1 * (j 1).val = 128 * (t.val % 16) + (j 1).val; omega
    | ⟨2, _⟩ => show win0_2.index t (2 : Fin 3) * 64 + 1 * (j 2).val = (j 2).val; omega
  rw [hemb, attend_at]
  refine (congrArg (out0_A_2 (F := Ideal) c (grid0.coords t) (ms0_0 t) (hs0_0 t) (ms0_1 t) (hs0_1 t) (ms0_2 t) (hs0_2 t) (iblk m c 0 t) (iblk m c 1 t)) hj).trans ?_
  refine (Tile.out_apply c (grid0.coords t) (ms0_0 t) (hs0_0 t) (ms0_1 t) (hs0_1 t) (ms0_2 t) (hs0_2 t) (iblk m c 0 t) (iblk m c 1 t)
    (⟨(j 0).val, hz⟩ : Fin 1) (⟨(j 1).val, hr⟩ : Fin 128) (⟨(j 2).val, hd⟩ : Fin 64)
    (⟨t.val / 16, by omega⟩ : Fin 32) g0.symm
    (⟨128 * (t.val % 16) + (j 1).val, by omega⟩ : Fin 2048) (by rw [g1])).trans ?_
  simp only [xblk_apply, ablk_apply]

/-! ## The cover, and the array after the run -/

/-- An index of the result array is in point `t`'s block iff each coordinate is in the block's range. -/
theorem mem_blk (t : Fin cfg0.N) (i : S32x2048x64.Idx) :
    i ∈ ((cfg0.win 2).blk t).view.set ↔ ∀ a : Fin 3, win0_2.index t a * S1x128x64.size a ≤ (i a).val ∧ (i a).val < win0_2.index t a * S1x128x64.size a + S1x128x64.size a := by
  show i ∈ ((View.whole main_v1).slice (win0_2.rect t)).set ↔ _
  rw [View.set_slice_whole, Rect.mem_set_unit]
  exact Iff.rfl

/-- Every index (b, n, d) lies in the block of the point `16 b + n / 128`. -/
theorem cover (i : S32x2048x64.Idx) : ∃ t : Fin cfg0.N, (cfg0.win 2).flush t = true ∧ i ∈ ((cfg0.win 2).blk t).view.set := by
  have hb : (i 0).val < 32 := (i 0).isLt
  have hn : (i 1).val < 2048 := (i 1).isLt
  have hd : (i 2).val < 64 := (i 2).isLt
  have hN : cfg0.N = 512 := N_0
  refine ⟨⟨16 * (i 0).val + (i 1).val / 128, by rw [hN]; omega⟩, flush0_2 _, ?_⟩
  obtain ⟨-, -, -, -, -, -, -, e0, e1, e2⟩ := idx_facts ⟨16 * (i 0).val + (i 1).val / 128, by rw [hN]; omega⟩
  rw [mem_blk]
  intro a
  match a with
  | ⟨0, _⟩ =>
    show win0_2.index _ (0 : Fin 3) * 1 ≤ (i 0).val ∧ (i 0).val < win0_2.index _ (0 : Fin 3) * 1 + 1
    rw [e0]; show (16 * (i 0).val + (i 1).val / 128) / 16 * 1 ≤ (i 0).val ∧ (i 0).val < (16 * (i 0).val + (i 1).val / 128) / 16 * 1 + 1; omega
  | ⟨1, _⟩ =>
    show win0_2.index _ (1 : Fin 3) * 128 ≤ (i 1).val ∧ (i 1).val < win0_2.index _ (1 : Fin 3) * 128 + 128
    rw [e1]; show (16 * (i 0).val + (i 1).val / 128) % 16 * 128 ≤ (i 1).val ∧ (i 1).val < (16 * (i 0).val + (i 1).val / 128) % 16 * 128 + 128; omega
  | ⟨2, _⟩ =>
    show win0_2.index _ (2 : Fin 3) * 64 ≤ (i 2).val ∧ (i 2).val < win0_2.index _ (2 : Fin 3) * 64 + 64
    rw [e2]; omega

/-- THE RESULT ARRAY after the run: the attention array of the two arguments. -/
theorem final (c : Dev nD) : (dats m 0 c).arrAt 2 cfg0.N = AttentionRow.attend (feats m c) (adjm m c) :=
  (dats m 0 c).arrAt_eq_of_cover 2 (AttentionRow.attend (feats m c) (adjm m c)) (fun t _ => flushed_eq m c t) (cover)

/-- The kernel's run: it ends with the result array at the attention array of the arguments, the
    arguments unchanged. -/
theorem run : θ_run defs (onTc (τ := τ) (main (F := Ideal))) ⟨m, fun _ => 0, ρ⟩ fun r => ∀ c : Dev nD,
      r.2.mem ((c : Thread nD τ).loc main_v1) = AttentionRow.attend (feats m c) (adjm m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.Block

end
-- ==== Proof.RefValue.lean ====
/-
  The reference program's result is the attention array (`AttentionRow.attend`).

  The reference forms, for the whole batch at once, the logits [32, 2048, 2048] (a batched
  product contracting the feature axis, scaled, masked by the adjacency matrix spread over the
  batch), takes each row's maximum from `-∞` (and the maximum of that with `-∞` once more, which
  changes nothing), exponentiates the differences, divides by the row sums, and multiplies by
  the features again, contracting the key axis. Read at (b, n, ·), every stage is the stage of
  the same name of the attention row of node `n` of batch `b`.
-/
import proofs.«422148_j68367289417953_3_alg».proof.Proof.Gen.ReferenceIdeal.Run
import proofs.«422148_j68367289417953_3_alg».proof.Proof.Gen.ReferenceIdeal.Read
import proofs.«422148_j68367289417953_3_alg».proof.Proof.AttentionRow
import Idealize.ShloMosaic.PureOps.Reduce

noncomputable section

namespace Cert.ReferenceIdeal.RefValue

open Cert.ReferenceIdeal Cert.ReferenceIdeal.Gen Cert.ReferenceIdeal.Read Idealize.ShloMosaic Idealize.ShloMosaic.ValueIdx

variable (x : FVec Ideal S32x2048x64 .f32) (adj : IVec S2048x2048 32)

/-- The row data of node `n` of batch `b`. -/
abbrev qOf (b : Fin 32) (n : Fin 2048) : Fin 64 → EReal := fun k => x (ix3 b n k)
abbrev kOf (b : Fin 32) : Fin 2048 → Fin 64 → EReal := fun m k => x (ix3 b m k)
abbrev aOf (n : Fin 2048) : Fin 2048 → BitVec 32 := fun m => adj (ix2 n m)

/-! ## Where each stage reads its operands -/

theorem lidx_v0 (b : Fin 32) (n m : Fin 2048) (k : Fin 64) : lidx_main_v0 (ix3 b n m) k = ix3 b n k :=
  funext fun a => Fin.ext (by match a with | ⟨0, _⟩ => rfl | ⟨1, _⟩ => rfl | ⟨2, _⟩ => rfl)
theorem ridx_v0 (b : Fin 32) (n m : Fin 2048) (k : Fin 64) : ridx_main_v0 (ix3 b n m) k = ix3 b m k :=
  funext fun a => Fin.ext (by match a with | ⟨0, _⟩ => rfl | ⟨1, _⟩ => rfl | ⟨2, _⟩ => rfl)
theorem idx_mask (b : Fin 32) (n m : Fin 2048) : idx_main_call0_v0 (ix3 b n m) = ix2 n m :=
  funext fun a => Fin.ext (by match a with | ⟨0, _⟩ => rfl | ⟨1, _⟩ => rfl)
theorem idx_v10 (b : Fin 32) (n m : Fin 2048) : idx_main_v9 (idx_main_v10 (ix3 b n m)) = ix2 b n :=
  funext fun a => Fin.ext (by match a with | ⟨0, _⟩ => rfl | ⟨1, _⟩ => rfl)
theorem idx_v15 (b : Fin 32) (n m : Fin 2048) : idx_main_v14 (idx_main_v15 (ix3 b n m)) = ix2 b n :=
  funext fun a => Fin.ext (by match a with | ⟨0, _⟩ => rfl | ⟨1, _⟩ => rfl)
theorem idx_v13 (b : Fin 32) (n m : Fin 2048) : idx_main_v13 (ix2 b n) m = ix3 b n m :=
  funext fun a => Fin.ext (by match a with | ⟨0, _⟩ => rfl | ⟨1, _⟩ => rfl | ⟨2, _⟩ => rfl)
theorem lidx_v17 (b : Fin 32) (n : Fin 2048) (d : Fin 64) (m : Fin 2048) : lidx_main_v17 (ix3 b n d) m = ix3 b n m :=
  funext fun a => Fin.ext (by match a with | ⟨0, _⟩ => rfl | ⟨1, _⟩ => rfl | ⟨2, _⟩ => rfl)
theorem ridx_v17 (b : Fin 32) (n : Fin 2048) (d : Fin 64) (m : Fin 2048) : ridx_main_v17 (ix3 b n d) m = ix3 b m d :=
  funext fun a => Fin.ext (by match a with | ⟨0, _⟩ => rfl | ⟨1, _⟩ => rfl | ⟨2, _⟩ => rfl)
/-- Row (b, n)'s reduced index with key coordinate `m` put back is (b, n, m). -/
theorem lift_v6 (h : S32x2048x2048.Reduces [2] S32x2048) (b : Fin 32) (n m : Fin 2048) : h.lift (ix2 b n) m = ix3 b n m := by
  funext c
  apply Fin.ext
  match c with
  | ⟨0, _⟩ => rfl
  | ⟨1, _⟩ => rfl
  | ⟨2, _⟩ => rfl

/-! ## The stages at (b, n, ·) -/

/-- The masked, scaled logit of node `n` against node `m`. -/
theorem logit_ref (b : Fin 32) (n m : Fin 2048) :
    val_main_v5 (F := Ideal) x adj (ix3 b n m) = AttentionRow.logit (qOf x b n) (kOf x b) (aOf adj n) m := by
  rw [val_main_v5_apply, val_main_call0_v0_apply, val_main_v4_apply, val_main_v3_apply, val_main_c_apply,
    val_main_v2_apply, val_main_v0_apply, val_main_v1_apply, val_main_cst_apply,
    val_main_call0_v1_apply, val_main_cst_0_apply, idx_mask]
  simp only [lidx_v0, ridx_v0]
  rfl

/-- The host's maximum over the key axis, at row (b, n): the maximum of the row's entries, taken
    from the initial value. -/
theorem rowmax_ref (v : FVec Ideal S32x2048x2048 .f32) (init : FVec Ideal S_ .f32) (b : Fin 32) (n : Fin 2048) :
    Host.reduce FloatOps.maximumf v init reducesTo_S32x2048x2048_S32x2048_d2 h_S_ (ix2 b n)
      = (Finset.univ : Finset (Fin 2048)).fold max (init (Shape.Idx.first h_S_)) (fun m => v (ix3 b n m)) := by
  have h : S32x2048x2048.Reduces [2] S32x2048 := by decide
  refine (Host.reduce_eq_fold_single FloatOps.maximumf v init reducesTo_S32x2048x2048_S32x2048_d2 h h_S_ (ix2 b n)).trans ?_
  show (Finset.univ : Finset (Fin 2048)).fold max (init (Shape.Idx.first h_S_)) (v ∘ h.lift (ix2 b n)) = _
  exact congrArg (fun f : Fin 2048 → EReal => (Finset.univ : Finset (Fin 2048)).fold max (init (Shape.Idx.first h_S_)) f)
    (funext fun m => congrArg v (lift_v6 h b n m))

/-- The row's maximum: the fold from `-∞`, which a further maximum with `-∞` leaves as it is. -/
theorem peak_ref (b : Fin 32) (n : Fin 2048) :
    val_main_v8 (F := Ideal) x adj (ix2 b n) = AttentionRow.peak (qOf x b n) (kOf x b) (aOf adj n) := by
  rw [val_main_v8_apply, val_main_v7_apply, val_main_cst_2_apply]
  unfold val_main_v6
  refine (congrArg (fun y : EReal => max (Ideal.ofBits .f32 0xFF800000#32) y)
    (rowmax_ref (val_main_v5 (F := Ideal) x adj) (val_main_cst_1 (F := Ideal)) b n)).trans ?_
  have hrow : (fun m => val_main_v5 (F := Ideal) x adj (ix3 b n m)) = AttentionRow.logit (qOf x b n) (kOf x b) (aOf adj n) :=
    funext fun m => logit_ref x adj b n m
  rw [hrow, val_main_cst_1_apply]
  exact AttentionRow.max_fold_max_self _ _ _

/-- The unnormalised weight of node `m` in row (b, n). -/
theorem weight_ref (b : Fin 32) (n m : Fin 2048) :
    val_main_v12 (F := Ideal) x adj (ix3 b n m) = AttentionRow.weight (qOf x b n) (kOf x b) (aOf adj n) m := by
  rw [val_main_v12_apply, val_main_v11_apply, val_main_v10_apply, val_main_v9_apply, idx_v10, logit_ref, peak_ref]
  rfl

/-- The sum of row (b, n)'s weights (from the zero the reference starts its sum at). -/
theorem mass_ref (b : Fin 32) (n : Fin 2048) :
    val_main_v13 (F := Ideal) x adj (ix2 b n) = AttentionRow.mass (qOf x b n) (kOf x b) (aOf adj n) := by
  rw [val_main_v13_apply, val_main_cst_3_apply]
  show Ideal.ofBits .f32 0x00000000#32 + _ = _
  rw [Ideal.ofBits_zero_f32, zero_add]
  unfold AttentionRow.mass
  exact Finset.sum_congr rfl fun m _ => by rw [idx_v13, weight_ref]

/-- THE REFERENCE'S RESULT, as a function of the two argument arrays, is the attention array. -/
theorem ref_eq : val_main_v17 (F := Ideal) x adj = AttentionRow.attend x adj := by
  funext i
  obtain ⟨b, n, d, rfl⟩ : ∃ (b : Fin 32) (n : Fin 2048) (d : Fin 64), i = ix3 b n d := ⟨i 0, i 1, i 2, eq_ix3 i⟩
  rw [val_main_v17_apply]
  show _ = AttentionRow.out (qOf x b n) (kOf x b) (aOf adj n) d
  unfold AttentionRow.out
  refine Finset.sum_congr rfl fun m _ => ?_
  rw [lidx_v17, ridx_v17, val_main_v16_apply, val_main_v15_apply, val_main_v14_apply, idx_v15, weight_ref, mass_ref]
  rfl

end Cert.ReferenceIdeal.RefValue

end
-- ==== Proof.Claims.lean ====
/-
  The five claims.

  The three frames: the kernel's two (as printed, and idealized) are the generated frame
  certificates; the reference has no kernel, and its frame is its generated run with the result
  dropped. The idealization rewrote no operation, so `preserves` is `True`.

  `algebraic`: over the extended reals the idealized kernel ends with its result array at the
  attention array of its two arguments (`Block.run`: each grid point writes the attention rows of
  its 128 nodes, and the blocks cover the array), and the idealized reference ends with its
  result at the same function of its arguments (`RefValue.ref_eq` over the generated run). The
  arguments agree, so the results are equal element by element. No property of the inputs is
  used: both programs are the same expression of sums, maxima, exponentials and quotients of
  the same extended reals, differing only in the order and grouping of sums, in changes of
  float format, and in one maximum with `-∞`.
-/
import proofs.«422148_j68367289417953_3_alg».proof.Defs
import proofs.«422148_j68367289417953_3_alg».proof.Proof.Gen.Kernel
import proofs.«422148_j68367289417953_3_alg».proof.Proof.Gen.Kernel.Frame
import proofs.«422148_j68367289417953_3_alg».proof.Proof.Gen.KernelIdeal
import proofs.«422148_j68367289417953_3_alg».proof.Proof.Gen.KernelIdeal.Frame
import proofs.«422148_j68367289417953_3_alg».proof.Proof.Gen.ReferenceIdeal
import proofs.«422148_j68367289417953_3_alg».proof.Proof.Gen.ReferenceIdeal.Run
import proofs.«422148_j68367289417953_3_alg».proof.Proof.Gen.ReferenceIdeal.Read
import proofs.«422148_j68367289417953_3_alg».proof.Proof.Gen.Pre_finite_inputs
import proofs.«422148_j68367289417953_3_alg».proof.Proof.KernelBlock
import proofs.«422148_j68367289417953_3_alg».proof.Proof.RefValue

noncomputable section

namespace Cert.Proof.Claims

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

theorem algebraic : Cert.algebraic_KernelIdeal_ReferenceIdeal := by
  intro m ρ m' ρ' _ hagree
  refine ⟨fun c => Cert.AttentionRow.attend (Cert.KernelIdeal.Block.feats m c) (Cert.KernelIdeal.Block.adjm m c),
    Cert.KernelIdeal.Block.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v17_eq, Cert.ReferenceIdeal.RefValue.ref_eq, (hagree c).1, (hagree c).2]

end Cert.Proof.Claims

end
-- ==== Proof.lean ====
/-
  The proof of `Cert.Claim`: a Pallas kernel for masked dot-product attention over a graph's
  adjacency matrix (for each batch, softmax over the neighbours of the scaled inner products of
  the nodes' feature vectors, applied to the feature vectors again), tiled 128 query nodes at a
  time, against the same computation written with two batched products and `jax.nn.softmax`.

  Proof/AttentionRow.lean states one attention row over the extended reals and the result array
  as that row at every (batch, node). Proof/KernelProducts.lean, KernelReductions.lean and
  KernelRow.lean read the kernel body's stored value at an element as that row; KernelTile.lean
  reads the loads of a grid point, and KernelBlock.lean puts the 512 blocks together: the
  kernel's result array is the attention array. Proof/RefValue.lean shows the same of the
  reference's result. Proof/Claims.lean states the five claims, assembled here behind the
  witnesses of the programs' stated facts.
-/
import proofs.«422148_j68367289417953_3_alg».proof.Defs
import proofs.«422148_j68367289417953_3_alg».proof.Proof.Claims
import proofs.«422148_j68367289417953_3_alg».proof.Proof.Gen.Kernel
import proofs.«422148_j68367289417953_3_alg».proof.Proof.Gen.KernelIdeal
import proofs.«422148_j68367289417953_3_alg».proof.Proof.Gen.ReferenceIdeal
import proofs.«422148_j68367289417953_3_alg».proof.Proof.Gen.Pre_finite_inputs
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
